-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S200000x64 .f32) (main_arg1 : FVec F S27x64x64 .f32) (main_arg2 : FVec F S64 .f32) (main_arg3 : IVec S27x100000 32) (main_arg4 : IVec S27x100000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x5000x64 : Shape := ⟨3, ![1, 5000, 64]⟩
abbrev S1x64x64 : Shape := ⟨3, ![1, 64, 64]⟩
abbrev S5000x64 : Shape := ⟨2, ![5000, 64]⟩
abbrev S64x64 : Shape := ⟨2, ![64, 64]⟩
abbrev S1x64 : Shape := ⟨2, ![1, 64]⟩

abbrev nBuf : Space → Nat
  | .hbm => 29
  | .vmem => 6
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S27x100000, .i32⟩
  | .hbm, ⟨4, _⟩ => ⟨S27x100000, .i32⟩
  | .hbm, ⟨5, _⟩ => ⟨S_, .i32⟩
  | .hbm, ⟨6, _⟩ => ⟨S27x100000, .i32⟩
  | .hbm, ⟨7, _⟩ => ⟨S27x100000, .i1⟩
  | .hbm, ⟨8, _⟩ => ⟨S_, .i32⟩
  | .hbm, ⟨9, _⟩ => ⟨S27x100000, .i32⟩
  | .hbm, ⟨10, _⟩ => ⟨S27x100000, .i32⟩
  | .hbm, ⟨11, _⟩ => ⟨S27x100000, .i32⟩
  | .hbm, ⟨12, _⟩ => ⟨S27x100000x1, .i32⟩
  | .hbm, ⟨13, _⟩ => ⟨S27x100000x64, .f32⟩
  | .hbm, ⟨14, _⟩ => ⟨S27x100000x64, .f32⟩
  | .hbm, ⟨15, _⟩ => ⟨S_, .f32⟩
  | .hbm, ⟨16, _⟩ => ⟨S200000x64, .f32⟩
  | .hbm, ⟨17, _⟩ => ⟨S_, .i32⟩
  | .hbm, ⟨18, _⟩ => ⟨S27x100000, .i32⟩
  | .hbm, ⟨19, _⟩ => ⟨S27x100000, .i1⟩
  | .hbm, ⟨20, _⟩ => ⟨S_, .i32⟩
  | .hbm, ⟨21, _⟩ => ⟨S27x100000, .i32⟩
  | .hbm, ⟨22, _⟩ => ⟨S27x100000, .i32⟩
  | .hbm, ⟨23, _⟩ => ⟨S27x100000, .i32⟩
  | .hbm, ⟨24, _⟩ => ⟨S27x100000x1, .i32⟩
  | .hbm, ⟨25, _⟩ => ⟨S200000x64, .f32⟩
  | .hbm, ⟨26, _⟩ => ⟨S1x64, .f32⟩
  | .hbm, ⟨27, _⟩ => ⟨S200000x64, .f32⟩
  | .hbm, ⟨28, _⟩ => ⟨S200000x64, .f32⟩
  | .local _ .vmem, ⟨0, _⟩ => ⟨S1x5000x64, .f32⟩
  | .local _ .vmem, ⟨1, _⟩ => ⟨S1x5000x64, .f32⟩
  | .local _ .vmem, ⟨2, _⟩ => ⟨S1x64x64, .f32⟩
  | .local _ .vmem, ⟨3, _⟩ => ⟨S1x64x64, .f32⟩
  | .local _ .vmem, ⟨4, _⟩ => ⟨S1x5000x64, .f32⟩
  | .local _ .vmem, ⟨5, _⟩ => ⟨S1x5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S5000x64_S1x5000x64 : S5000x64.ShapeCasts S1x5000x64
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S27x100000x1_S27x100000x64_2_0_n_n_0_2_164_wf : GatherDims.WF S200000x64 S27x100000x1 S27x100000x64 [2] [0] [] [0] [] 2 ![1, 64]
  dot_S5000x64_S64x64_S5000x64_1_0_0_1_n_n_wf : DotDims.WF S5000x64 S64x64 S5000x64 [1] [0] [0] [1] [] []
  scatter_S200000x64_S27x100000x1_S27x100000x64_2_0_0_2_wf : ScatterDims.WF S200000x64 S27x100000x1 S27x100000x64 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x64.size a ≤ S27x100000x64.size a
  hwx0_0 : ∀ i : grid0.Coords, EltTy.bits .f32 = 32 ∨ (Rect.block (s := S27x100000x64) S1x5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .f32 = 32 ∨ (Rect.block (s := S27x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x64.size a ≤ S27x100000x64.size a
  hwx0_2 : ∀ i : grid0.Coords, EltTy.bits .f32 = 32 ∨ (Rect.block (s := S27x100000x64) S1x5000x64.size (cc0_transform_2 i) (hinb0_2 i)).WholeWords (EltTy.packing .f32)

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S200000x64_S27x100000x1_S27x100000x64_2_0_0_2 : ScatterDims S200000x64 S27x100000x1 S27x100000x64 where
  updateWindowDims := [2]
  insertedWindowDims := [0]
  scatterDimsToOperandDims := [0]
  indexVectorDim := 2
  wf := scatter_S200000x64_S27x100000x1_S27x100000x64_2_0_0_2_wf

abbrev win0_0 : Pipeline.Window sig grid0 :=
  Pipeline.Window.ofSpec (Memref.whole main_v6) S1x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S27x100000, .i32⟩
  | .hbm, ⟨4, _⟩ => ⟨S27x100000, .i32⟩
  | .hbm, ⟨5, _⟩ => ⟨S_, .i32⟩
  | .hbm, ⟨6, _⟩ => ⟨S27x100000, .i32⟩
  | .hbm, ⟨7, _⟩ => ⟨S27x100000, .i1⟩
  | .hbm, ⟨8, _⟩ => ⟨S_, .i32⟩
  | .hbm, ⟨9, _⟩ => ⟨S27x100000, .i32⟩
  | .hbm, ⟨10, _⟩ => ⟨S27x100000, .i32⟩
  | .hbm, ⟨11, _⟩ => ⟨S27x100000, .i32⟩
  | .hbm, ⟨12, _⟩ => ⟨S27x100000x1, .i32⟩
  | .hbm, ⟨13, _⟩ => ⟨S27x100000x64, .f32⟩
  | .hbm, ⟨14, _⟩ => ⟨S27x100000x64, .f32⟩
  | .hbm, ⟨15, _⟩ => ⟨S_, .f32⟩
  | .hbm, ⟨16, _⟩ => ⟨S200000x64, .f32⟩
  | .hbm, ⟨17, _⟩ => ⟨S_, .i32⟩
  | .hbm, ⟨18, _⟩ => ⟨S27x100000, .i32⟩
  | .hbm, ⟨19, _⟩ => ⟨S27x100000, .i1⟩
  | .hbm, ⟨20, _⟩ => ⟨S_, .i32⟩
  | .hbm, ⟨21, _⟩ => ⟨S27x100000, .i32⟩
  | .hbm, ⟨22, _⟩ => ⟨S27x100000, .i32⟩
  | .hbm, ⟨23, _⟩ => ⟨S27x100000, .i32⟩
  | .hbm, ⟨24, _⟩ => ⟨S27x100000x1, .i32⟩
  | .hbm, ⟨25, _⟩ => ⟨S200000x64, .f32⟩
  | .hbm, ⟨26, _⟩ => ⟨S1x64, .f32⟩
  | .hbm, ⟨27, _⟩ => ⟨S200000x64, .f32⟩
  | .hbm, ⟨28, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S27x100000x1_S27x100000x64_2_0_n_n_0_2_164_wf : GatherDims.WF S200000x64 S27x100000x1 S27x100000x64 [2] [0] [] [0] [] 2 ![1, 64]
  dot_S27x100000x64_S27x64x64_S27x100000x64_2_1_1_2_0_0_wf : DotDims.WF S27x100000x64 S27x64x64 S27x100000x64 [2] [1] [1] [2] [0] [0]
  scatter_S200000x64_S27x100000x1_S27x100000x64_2_0_0_2_wf : ScatterDims.WF S200000x64 S27x100000x1 S27x100000x64 [2] [0] [0] 2

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S27x100000x64_S27x64x64_S27x100000x64_2_1_1_2_0_0 : DotDims S27x100000x64 S27x64x64 S27x100000x64 where
  lhsContracting := [2]
  rhsContracting := [1]
  lhsNonContracting := [1]
  rhsNonContracting := [2]
  lhsBatch := [0]
  rhsBatch := [0]
  wf := dot_S27x100000x64_S27x64x64_S27x100000x64_2_1_1_2_0_0_wf
def scatter_S200000x64_S27x100000x1_S27x100000x64_2_0_0_2 : ScatterDims S200000x64 S27x100000x1 S27x100000x64 where
  updateWindowDims := [2]
  insertedWindowDims := [0]
  scatterDimsToOperandDims := [0]
  indexVectorDim := 2
  wf := scatter_S200000x64_S27x100000x1_S27x100000x64_2_0_0_2_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.KernelTile.lean ====
/-
  One grid point of the kernel, read at an entry over the extended reals. The body loads a [1, 5000, 64] tile a of
  gathered rows and the offset's [1, 64, 64] weight tile w, drops the unit axis of each, multiplies them into a zero
  accumulator (the narrowing of both operands to bf16 is the identity on the extended reals) and stores the product
  with the unit axis put back: entry (0, p, q) of what it stores is ∑ x, a (0, p, x) · w (0, x, q).
-/
import proofs.«124515_j56392920596825_1_alg».proof.Proof.Gen.KernelIdeal.Skeleton
import proofs.«124515_j56392920596825_1_alg».proof.Proof.LibPlainProduct
import Idealize.ShloMosaic.Lib.Pipeline.Value
import Idealize.ShloMosaic.Lib.ValueIdx
import Idealize.ShloMosaic.PureOps.Ideal.Laws

noncomputable section

namespace Cert.SparseConv.Tile

open Idealize.ShloMosaic Idealize.ShloMosaic.ValueIdx
open Cert.KernelIdeal Cert.KernelIdeal.Gen

variable [Cert.KernelIdeal.Facts]

/-- The kernel's contraction record is the plain [5000, 64] × [64, 64] product. -/
theorem dot_plain : dot_S5000x64_S64x64_S5000x64_1_0_0_1_n_n = DotDims.plain 5000 64 64 := rfl

/-- Putting a leading unit coordinate in front of (p, x). -/
theorem cons_ix2 {n0 n1 : Nat} (p : Fin n0) (x : Fin n1) :
    (Fin.cons (⟨0, Nat.one_pos⟩ : Fin 1) (ix2 p x) : (⟨3, ![1, n0, n1]⟩ : Shape).Idx) = ix3 (0 : Fin 1) p x := by
  funext a; match a with | ⟨0, _⟩ => rfl | ⟨1, _⟩ => rfl | ⟨2, _⟩ => rfl

/-- Dropping the leading unit coordinate of (0, p, q). -/
theorem tail_ix3 {n0 n1 : Nat} (p : Fin n0) (q : Fin n1) :
    (fun a : Fin 2 => (ix3 (0 : Fin 1) p q : (⟨3, ![1, n0, n1]⟩ : Shape).Idx) a.succ) = ix2 p q := by
  funext a; match a with | ⟨0, _⟩ => rfl | ⟨1, _⟩ => rfl

/-- What the body stores, at (0, p, q): the sum over the 64 input channels x of a (0, p, x) · w (0, x, q). -/
theorem stored_apply (a : Vec Ideal S1x5000x64 .f32) (w : Vec Ideal S1x64x64 .f32) (p : Fin 5000) (q : Fin 64) :
    k0_pay1 (F := Ideal) a w (ix3 (0 : Fin 1) p q) = ∑ x : Fin 64, a (ix3 (0 : Fin 1) p x) * w (ix3 (0 : Fin 1) x q) := by
  unfold k0_pay1
  refine (shapeCast_addUnit_apply ![5000, 64] _ _ (ix3 (0 : Fin 1) p q)).trans ?_
  rw [tail_ix3 p q]
  refine (Cert.PlainProduct.matmul_zero_apply (M := 5000) (K := 64) (N := 64) none _ _ p q).trans ?_
  refine Finset.sum_congr rfl fun x _ => ?_
  refine congrArg₂ (· * ·) ?_ ?_
  · exact (shapeCast_dropUnit_apply ![5000, 64] a shapeCasts_S1x5000x64_S5000x64 (ix2 p x)).trans (congrArg a (cons_ix2 p x))
  · exact (shapeCast_dropUnit_apply ![64, 64] w shapeCasts_S1x64x64_S64x64 (ix2 x q)).trans (congrArg w (cons_ix2 x q))

/-- The same at any index j of the tile: (j 1, j 2) are the row and the output channel. -/
theorem stored_apply' (a : Vec Ideal S1x5000x64 .f32) (w : Vec Ideal S1x64x64 .f32) (j : S1x5000x64.Idx) :
    k0_pay1 (F := Ideal) a w j = ∑ x : Fin 64, a (ix3 (0 : Fin 1) (j 1) x) * w (ix3 (0 : Fin 1) x (j 2)) := by
  have hj : j = ix3 (0 : Fin 1) (j 1) (j 2) := by
    funext e; match e with | ⟨0, h⟩ => exact Fin.ext (by have h0 : (j ⟨0, h⟩).val < 1 := (j ⟨0, h⟩).isLt; show (j ⟨0, h⟩).val = 0; omega) | ⟨1, _⟩ => rfl | ⟨2, _⟩ => rfl
  exact (congrArg (k0_pay1 (F := Ideal) a w) hj).trans (stored_apply a w (j 1) (j 2))

end Cert.SparseConv.Tile

end
-- ==== Proof.OffsetProduct.lean ====
/-
  The per-offset product of a sparse convolution, as one array over the extended reals: for each of the 27 kernel
  offsets k, the [100000, 64] block of gathered input rows times the offset's [64, 64] weight matrix,
    P (k, r, o) = ∑ c, a (k, r, c) · w (k, c, o).
-/
import Idealize.ShloMosaic.Lib.ValueIdx
import Idealize.ShloMosaic.PureOps.Ideal.Laws

namespace Cert.SparseConv

open Idealize.ShloMosaic Idealize.ShloMosaic.ValueIdx

/-- Entry (k, r, o) of the per-offset product: the sum over the 64 input channels c of a (k, r, c) · w (k, c, o). -/
noncomputable def offsetProduct (a : FVec Ideal ⟨3, ![27, 100000, 64]⟩ .f32) (w : FVec Ideal ⟨3, ![27, 64, 64]⟩ .f32) :
    FVec Ideal ⟨3, ![27, 100000, 64]⟩ .f32 :=
  fun i => ∑ x : Fin 64, a (ix3 (i 0) (i 1) x) * w (ix3 (i 0) x (i 2))

theorem offsetProduct_at (a : FVec Ideal ⟨3, ![27, 100000, 64]⟩ .f32) (w : FVec Ideal ⟨3, ![27, 64, 64]⟩ .f32)
    (i : (⟨3, ![27, 100000, 64]⟩ : Shape).Idx) :
    offsetProduct a w i = ∑ x : Fin 64, a (ix3 (i 0) (i 1) x) * w (ix3 (i 0) x (i 2)) := rfl

theorem offsetProduct_apply (a : FVec Ideal ⟨3, ![27, 100000, 64]⟩ .f32) (w : FVec Ideal ⟨3, ![27, 64, 64]⟩ .f32)
    (k : Fin 27) (r : Fin 100000) (o : Fin 64) :
    offsetProduct a w (ix3 k r o) = ∑ x : Fin 64, a (ix3 k r x) * w (ix3 k x o) := rfl

end Cert.SparseConv
-- ==== Proof.KernelArray.lean ====
/-
  The array the kernel's region leaves, over the extended reals. The grid is 27 offsets × 20 row tiles, the row tile
  running fastest: point t is (offset t / 20, row tile t mod 20). It reads rows 5000·s … 5000·s + 4999 of offset k's
  gathered rows and offset k's whole weight matrix, and writes the same rows of offset k of the output. Each point's
  tile is the per-offset product read through the tile's rectangle, and the 540 tiles cover the output, so the region
  leaves the per-offset product of the gathered rows and the weights.
-/
import proofs.«124515_j56392920596825_1_alg».proof.Proof.Gen.KernelIdeal.Frame
import proofs.«124515_j56392920596825_1_alg».proof.Proof.KernelTile
import proofs.«124515_j56392920596825_1_alg».proof.Proof.OffsetProduct
import Idealize.ShloMosaic.Lib.Pipeline.Value
import Idealize.ShloMosaic.Lib.ValueIdx

set_option maxRecDepth 16384

noncomputable section

namespace Cert.SparseConv.Region

open Idealize.ShloMosaic Idealize.ShloMosaic.TcCoe Idealize.ShloMosaic.ValueIdx
open Idealize.SL.Sem
open Cert.KernelIdeal Cert.KernelIdeal.Gen Cert.SparseConv

variable [Cert.KernelIdeal.Facts]
variable (m : (ℓ : Loc nD τ sig) → Buf (Elt Ideal) ℓ)

theorem zero_offsets : (![0, 0, 0] : Fin 3 → Nat) = fun _ => 0 := funext fun a => by fin_cases a <;> rfl

theorem points : cfg0.N = 540 := N_0

/-- The output's tile at point t: offset t / 20, row tile t mod 20, all 64 channels. -/
theorem index_out (t : Fin cfg0.N) : win0_2.index t = ![t.val / 20 % 27, t.val % 20, 0] := by
  have ht : t.val < 540 := points ▸ t.isLt
  funext a
  match a with
  | ⟨0, _⟩ =>
    show (BitVec.ofNat 32 (t.val / 20 % 27)).toNat = t.val / 20 % 27
    rw [BitVec.toNat_ofNat]; exact Nat.mod_eq_of_lt (by omega)
  | ⟨1, _⟩ =>
    show (BitVec.ofNat 32 (t.val / 1 % 20)).toNat = t.val % 20
    rw [BitVec.toNat_ofNat, Nat.div_one]; exact Nat.mod_eq_of_lt (by omega)
  | ⟨2, _⟩ => rfl

/-- The gathered rows' tile sits at the same place. -/
theorem index_rows (t : Fin cfg0.N) : win0_0.index t = ![t.val / 20 % 27, t.val % 20, 0] := by
  have ht : t.val < 540 := points ▸ t.isLt
  funext a
  match a with
  | ⟨0, _⟩ =>
    show (BitVec.ofNat 32 (t.val / 20 % 27)).toNat = t.val / 20 % 27
    rw [BitVec.toNat_ofNat]; exact Nat.mod_eq_of_lt (by omega)
  | ⟨1, _⟩ =>
    show (BitVec.ofNat 32 (t.val / 1 % 20)).toNat = t.val % 20
    rw [BitVec.toNat_ofNat, Nat.div_one]; exact Nat.mod_eq_of_lt (by omega)
  | ⟨2, _⟩ => rfl

/-- The weights' tile is the whole matrix of offset t / 20. -/
theorem index_weights (t : Fin cfg0.N) : win0_1.index t = ![t.val / 20 % 27, 0, 0] := by
  have ht : t.val < 540 := points ▸ t.isLt
  funext a
  match a with
  | ⟨0, _⟩ =>
    show (BitVec.ofNat 32 (t.val / 20 % 27)).toNat = t.val / 20 % 27
    rw [BitVec.toNat_ofNat]; exact Nat.mod_eq_of_lt (by omega)
  | ⟨1, _⟩ => rfl
  | ⟨2, _⟩ => rfl

/-- The two input arrays as the region finds them, and their tiles at point t, at their literal types. -/
abbrev rowsArr (c : Dev nD) : FVec Ideal S27x100000x64 .f32 := V m c main_v6
abbrev weightsArr (c : Dev nD) : FVec Ideal S27x64x64 .f32 := V m c main_arg1
abbrev rowsTile (c : Dev nD) (t : Fin cfg0.N) : Vec Ideal S1x5000x64 .f32 := iblk m c 0 t
abbrev weightsTile (c : Dev nD) (t : Fin cfg0.N) : Vec Ideal S1x64x64 .f32 := iblk m c 1 t

/-- Where entry j of the output's tile at point t sits in the output. -/
abbrev outAt (t : Fin cfg0.N) (j : S1x5000x64.Idx) : S27x100000x64.Idx := ((cfg0.win 2).blk t).view.emb j

/-- Row j 1, channel x of the rows' tile sits at the output entry's offset and row, channel x. -/
theorem rows_at (t : Fin cfg0.N) (j : S1x5000x64.Idx) (x : Fin 64) :
    (((cfg0.win 0).blk t).view.emb (ix3 (0 : Fin 1) (j 1) x) : S27x100000x64.Idx)
      = ix3 (outAt t j 0) (outAt t j 1) x := by
  have r0 : win0_0.index t (0 : Fin 3) = t.val / 20 % 27 := congrFun (index_rows t) 0
  have r1 : win0_0.index t (1 : Fin 3) = t.val % 20 := congrFun (index_rows t) 1
  have r2 : win0_0.index t (2 : Fin 3) = 0 := congrFun (index_rows t) 2
  have o0 : win0_2.index t (0 : Fin 3) = t.val / 20 % 27 := congrFun (index_out t) 0
  have o1 : win0_2.index t (1 : Fin 3) = t.val % 20 := congrFun (index_out t) 1
  have hj0 : (j 0).val < 1 := (j 0).isLt
  funext a; apply Fin.ext
  match a with
  | ⟨0, _⟩ => show win0_0.index t (0 : Fin 3) * 1 + 1 * 0 = win0_2.index t (0 : Fin 3) * 1 + 1 * (j 0).val; omega
  | ⟨1, _⟩ => show win0_0.index t (1 : Fin 3) * 5000 + 1 * (j 1).val = win0_2.index t (1 : Fin 3) * 5000 + 1 * (j 1).val; omega
  | ⟨2, _⟩ => show win0_0.index t (2 : Fin 3) * 64 + 1 * x.val = x.val; omega

/-- Channel x, output channel j 2 of the weights' tile sits at the output entry's offset, (x, j 2). -/
theorem weights_at (t : Fin cfg0.N) (j : S1x5000x64.Idx) (x : Fin 64) :
    (((cfg0.win 1).blk t).view.emb (ix3 (0 : Fin 1) x (j 2)) : S27x64x64.Idx)
      = ix3 (outAt t j 0) x (outAt t j 2) := by
  have w0 : win0_1.index t (0 : Fin 3) = t.val / 20 % 27 := congrFun (index_weights t) 0
  have w1 : win0_1.index t (1 : Fin 3) = 0 := congrFun (index_weights t) 1
  have w2 : win0_1.index t (2 : Fin 3) = 0 := congrFun (index_weights t) 2
  have o0 : win0_2.index t (0 : Fin 3) = t.val / 20 % 27 := congrFun (index_out t) 0
  have o2 : win0_2.index t (2 : Fin 3) = 0 := congrFun (index_out t) 2
  have hj0 : (j 0).val < 1 := (j 0).isLt
  funext a; apply Fin.ext
  match a with
  | ⟨0, _⟩ => show win0_1.index t (0 : Fin 3) * 1 + 1 * 0 = win0_2.index t (0 : Fin 3) * 1 + 1 * (j 0).val; omega
  | ⟨1, _⟩ => show win0_1.index t (1 : Fin 3) * 64 + 1 * x.val = x.val; omega
  | ⟨2, _⟩ => show win0_1.index t (2 : Fin 3) * 64 + 1 * (j 2).val = win0_2.index t (2 : Fin 3) * 64 + 1 * (j 2).val; omega

/-- Entry j of what point t stores is the per-offset product at the entry's place in the output. -/
theorem tile_eq (c : Dev nD) (t : Fin cfg0.N) (j : S1x5000x64.Idx) :
    k0_pay1 (F := Ideal) (rowsTile m c t) (weightsTile m c t) j
      = offsetProduct (rowsArr m c) (weightsArr m c) (outAt t j) := by
  refine (Tile.stored_apply' (rowsTile m c t) (weightsTile m c t) j).trans ?_
  refine Eq.trans ?_ (offsetProduct_at (rowsArr m c) (weightsArr m c) (outAt t j)).symm
  refine Finset.sum_congr rfl fun x _ => congrArg₂ (· * ·) ?_ ?_
  · exact congrArg (rowsArr m c) (rows_at t j x)
  · exact congrArg (weightsArr m c) (weights_at t j x)

/-- What point t writes back is its tile of the per-offset product of the gathered rows and the weights. -/
theorem flushed_eq (c : Dev nD) (t : Fin cfg0.N) :
    (dats m 0 c).flushed 2 t
      = ((cfg0.win 2).blk t).view.read (Elt Ideal) (offsetProduct (V m c main_v6) (V m c main_arg1)) := by
  show (cfg0.win 2).cut (grid0.coords t) ((dats m 0 c).after 2 t) = _
  rw [after0_2]
  unfold out0_2
  rw [View.canon_unit_zero zero_offsets]
  simp only [View.ld_unit_zero (S := S1x5000x64) zero_offsets, View.ld_unit_zero (S := S1x64x64) zero_offsets]
  funext j
  exact tile_eq m c t j

/-- An index of the output is in point t's tile iff each coordinate is in the tile's range on its axis. -/
theorem mem_tile (t : Fin cfg0.N) (i : S27x100000x64.Idx) :
    i ∈ ((cfg0.win 2).blk t).view.set ↔ ∀ a : Fin 3, win0_2.index t a * S1x5000x64.size a ≤ (i a).val
      ∧ (i a).val < win0_2.index t a * S1x5000x64.size a + S1x5000x64.size a := by
  show i ∈ ((View.whole main_v7).slice (win0_2.rect t)).set ↔ _
  rw [View.set_slice_whole, Rect.mem_set_unit]
  exact Iff.rfl

/-- Every index (k, r, o) of the output is in the tile of point 20·k + r / 5000. -/
theorem cover (i : S27x100000x64.Idx) :
    ∃ t : Fin cfg0.N, (cfg0.win 2).flush t = true ∧ i ∈ ((cfg0.win 2).blk t).view.set := by
  have h0 : (i 0).val < 27 := (i 0).isLt
  have h1 : (i 1).val < 100000 := (i 1).isLt
  have h2 : (i 2).val < 64 := (i 2).isLt
  have hN : cfg0.N = 540 := points
  refine ⟨⟨(i 0).val * 20 + (i 1).val / 5000, by rw [hN]; omega⟩, flush0_2 _, ?_⟩
  rw [mem_tile]
  have o0 := congrFun (index_out ⟨(i 0).val * 20 + (i 1).val / 5000, by rw [hN]; omega⟩) 0
  have o1 := congrFun (index_out ⟨(i 0).val * 20 + (i 1).val / 5000, by rw [hN]; omega⟩) 1
  have o2 := congrFun (index_out ⟨(i 0).val * 20 + (i 1).val / 5000, by rw [hN]; omega⟩) 2
  intro a
  match a with
  | ⟨0, _⟩ =>
    show win0_2.index _ (0 : Fin 3) * 1 ≤ (i 0).val ∧ (i 0).val < win0_2.index _ (0 : Fin 3) * 1 + 1
    rw [o0]; show ((i 0).val * 20 + (i 1).val / 5000) / 20 % 27 * 1 ≤ (i 0).val ∧ (i 0).val < ((i 0).val * 20 + (i 1).val / 5000) / 20 % 27 * 1 + 1; omega
  | ⟨1, _⟩ =>
    show win0_2.index _ (1 : Fin 3) * 5000 ≤ (i 1).val ∧ (i 1).val < win0_2.index _ (1 : Fin 3) * 5000 + 5000
    rw [o1]; show ((i 0).val * 20 + (i 1).val / 5000) % 20 * 5000 ≤ (i 1).val ∧ (i 1).val < ((i 0).val * 20 + (i 1).val / 5000) % 20 * 5000 + 5000; omega
  | ⟨2, _⟩ =>
    show win0_2.index _ (2 : Fin 3) * 64 ≤ (i 2).val ∧ (i 2).val < win0_2.index _ (2 : Fin 3) * 64 + 64
    rw [o2]; show 0 * 64 ≤ (i 2).val ∧ (i 2).val < 0 * 64 + 64; omega

/-- The region leaves the per-offset product of the gathered rows, as it finds them, and the weights. -/
theorem product_left (c : Dev nD) :
    (dats m 0 c).arrAt 2 cfg0.N = offsetProduct (V m c main_v6) (V m c main_arg1) :=
  (dats m 0 c).arrAt_eq_of_cover 2 _ (fun t _ => flushed_eq m c t) cover

end Cert.SparseConv.Region

end
-- ==== Proof.KernelResult.lean ====
/-
  The kernel's whole run, over the extended reals. Before the region the host gathers the input rows at the wrapped
  input indices; the region leaves the per-offset product of those rows and the weights; after it the host
  scatter-adds the product's rows into a zero table at the wrapped output indices and adds the bias row.
-/
import proofs.«124515_j56392920596825_1_alg».proof.Proof.Gen.KernelIdeal.Frame
import proofs.«124515_j56392920596825_1_alg».proof.Proof.KernelArray
import Idealize.ShloMosaic.Lib.StableHlo.Run

set_option maxRecDepth 16384

noncomputable section

namespace Cert.SparseConv.Region

open Idealize.ShloMosaic Idealize.ShloMosaic.TcCoe Idealize.ShloMosaic.ValueIdx
open Idealize.SL.Sem Idealize.ShloMosaic.StableHlo
open Cert.KernelIdeal Cert.KernelIdeal.Gen Cert.SparseConv

variable [Cert.KernelIdeal.Facts]
variable (m : (ℓ : Loc nD τ sig) → Buf (Elt Ideal) ℓ)

/-- The gathered rows: row (k, r) is the input row at index x3 (k, r), a negative index wrapped by 200000 first. -/
def gathered (x0 : (⟨S200000x64, .f32⟩ : BufTy).Contents (Elt Ideal)) (x3 : (⟨S27x100000, .i32⟩ : BufTy).Contents (Elt Ideal)) :
    (⟨S27x100000x64, .f32⟩ : BufTy).Contents (Elt Ideal) :=
  Host.gather gather_S200000x64_S27x100000x1_S27x100000x64_2_0_n_n_0_2_164 x0
    (broadcastInDim S27x100000x1 ![0, 1] bcast_S27x100000_S27x100000x1_0_1
      (select (cmpi .slt x3 (broadcastInDim S27x100000 ![] bcast_S_S27x100000 (constantI S_ 32 0#32)))
        (addi x3 (broadcastInDim S27x100000 ![] bcast_S_S27x100000 (constantI S_ 32 200000#32))) x3))

/-- The region finds the gathered rows in its first window's array. -/
theorem rows_found (c : Dev nD) :
    V m c main_v6 = gathered (m ((c : Thread nD τ).loc main_arg0)) (m ((c : Thread nD τ).loc main_arg3)) := by
  show StableHlo.after hostOps0 (fun b => m (c, b)) (Proc.devRef .tc main_v6) = _
  after_results
  rfl

/-- What follows the region, of the product P it leaves: P's rows scatter-added into a zero [200000, 64] table at
    the output indices x4 (a negative index wrapped by 200000 first), then the bias x2 added to every row. -/
def finished (P : (⟨S27x100000x64, .f32⟩ : BufTy).Contents (Elt Ideal)) (x2 : (⟨S64, .f32⟩ : BufTy).Contents (Elt Ideal))
    (x4 : (⟨S27x100000, .i32⟩ : BufTy).Contents (Elt Ideal)) : (⟨S200000x64, .f32⟩ : BufTy).Contents (Elt Ideal) :=
  addf (F := Ideal) (φ := .f32)
    (Host.scatterAdd (F := Ideal) scatter_S200000x64_S27x100000x1_S27x100000x64_2_0_0_2
      (broadcastInDim S200000x64 ![] bcast_S_S200000x64 (constant (F := Ideal) S_ .f32 0x00000000#32))
      (broadcastInDim S27x100000x1 ![0, 1] bcast_S27x100000_S27x100000x1_0_1
        (select (cmpi .slt x4 (broadcastInDim S27x100000 ![] bcast_S_S27x100000 (constantI S_ 32 0#32)))
          (addi x4 (broadcastInDim S27x100000 ![] bcast_S_S27x100000 (constantI S_ 32 200000#32))) x4))
      P)
    (broadcastInDim S200000x64 ![0, 1] bcast_S1x64_S200000x64_0_1 (broadcastInDim S1x64 ![1] bcast_S64_S1x64_1 x2))

/-- The host lines after the region read the region's output array, the output indices and the bias, and leave
    the finished per-offset product of the gathered rows and the weights. -/
theorem result_found (c : Dev nD) :
    Pipeline.afterTail₀ cfgs (dats m) 0 (V0 m) [hostOps1] c main_v18
      = finished (offsetProduct (gathered (m ((c : Thread nD τ).loc main_arg0)) (m ((c : Thread nD τ).loc main_arg3)))
          (m ((c : Thread nD τ).loc main_arg1)))
        (m ((c : Thread nD τ).loc main_arg2)) (m ((c : Thread nD τ).loc main_arg4)) := by
  have h7 : Pipeline.withArrays (cfgs 0).spec c (V0 m c) (fun w => (dats m 0 c).arrAt w (cfgs 0).N) (Proc.devRef .tc main_v7)
      = (dats m 0 c).arrAt 2 cfg0.N := Pipeline.withArrays_arr spec0 launch0.win.arr_inj c _ _ 2
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v18) = _
  after_results
  rw [h7, h4, h2, product_left m c, rows_found m c, V_main_arg1 m c]
  rfl

/-- THE KERNEL'S RUN: every weakly fair execution terminates with the result at the finished per-offset product
    of the gathered rows and the weights, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v18)
        = finished (offsetProduct (gathered (m ((c : Thread nD τ).loc main_arg0)) (m ((c : Thread nD τ).loc main_arg3)))
            (m ((c : Thread nD τ).loc main_arg1)))
          (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v18 (Pipeline.mem_restRefs_of main_v18 (by decide) (by decide))).trans (result_found m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.SparseConv.Region

end
-- ==== Proof.RefProduct.lean ====
/-
  The reference, stage by stage, over the extended reals. Its batched product of the gathered rows by the weights
  (batch axis the 27 offsets, contracted axis the 64 input channels) is the per-offset product; what follows it —
  the scatter-add of the product's rows into a zero table at the wrapped output indices, then the bias row added to
  every row — is kept as one function of the product.
-/
import proofs.«124515_j56392920596825_1_alg».proof.Proof.Gen.ReferenceIdeal.Run
import proofs.«124515_j56392920596825_1_alg».proof.Proof.Gen.ReferenceIdeal.Read
import proofs.«124515_j56392920596825_1_alg».proof.Proof.OffsetProduct

set_option maxRecDepth 16384

noncomputable section

namespace Cert.SparseConv.Ref

open Idealize.ShloMosaic Idealize.ShloMosaic.ValueIdx
open Cert.ReferenceIdeal Cert.ReferenceIdeal.Gen Cert.ReferenceIdeal.Read Cert.SparseConv

variable [Cert.ReferenceIdeal.Facts]

/-- The reference's batched product is the per-offset product of the gathered rows and the weights. -/
theorem product_eq (x0 : (⟨S200000x64, .f32⟩ : BufTy).Contents (Elt Ideal)) (x1 : (⟨S27x64x64, .f32⟩ : BufTy).Contents (Elt Ideal))
    (x3 : (⟨S27x100000, .i32⟩ : BufTy).Contents (Elt Ideal)) :
    val_main_v7 (F := Ideal) x0 x1 x3 = offsetProduct (val_main_v6 (F := Ideal) x0 x3) x1 := by
  funext i
  rw [val_main_v7_apply]
  refine Finset.sum_congr rfl fun k _ => ?_
  have el : lidx_main_v7 i k = ix3 (i 0) (i 1) k :=
    funext fun a => by match a with | ⟨0, _⟩ => rfl | ⟨1, _⟩ => rfl | ⟨2, _⟩ => rfl
  have er : ridx_main_v7 i k = ix3 (i 0) k (i 2) :=
    funext fun a => by match a with | ⟨0, _⟩ => rfl | ⟨1, _⟩ => rfl | ⟨2, _⟩ => rfl
  rw [el, er]
  rfl

/-- What follows the product: its rows scatter-added into a zero [200000, 64] table at the output indices x4
    (a negative index wrapped by 200000 first), then the bias x2 added to every row. -/
def finish (P : (⟨S27x100000x64, .f32⟩ : BufTy).Contents (Elt Ideal)) (x2 : (⟨S64, .f32⟩ : BufTy).Contents (Elt Ideal))
    (x4 : (⟨S27x100000, .i32⟩ : BufTy).Contents (Elt Ideal)) : (⟨S200000x64, .f32⟩ : BufTy).Contents (Elt Ideal) :=
  addf (F := Ideal) (φ := .f32)
    (Host.scatterAdd (F := Ideal) scatter_S200000x64_S27x100000x1_S27x100000x64_2_0_0_2 (val_main_v8 (F := Ideal)) (val_main_v14 (F := Ideal) x4) P)
    (val_main_v17 (F := Ideal) x2)

/-- The reference's result: the per-offset product of the gathered rows and the weights, finished. -/
theorem result_eq (x0 : (⟨S200000x64, .f32⟩ : BufTy).Contents (Elt Ideal)) (x1 : (⟨S27x64x64, .f32⟩ : BufTy).Contents (Elt Ideal))
    (x2 : (⟨S64, .f32⟩ : BufTy).Contents (Elt Ideal)) (x3 x4 : (⟨S27x100000, .i32⟩ : BufTy).Contents (Elt Ideal)) :
    val_main_v18 (F := Ideal) x0 x1 x2 x3 x4 = finish (offsetProduct (val_main_v6 (F := Ideal) x0 x3) x1) x2 x4 := by
  unfold val_main_v18 val_main_v15
  rw [product_eq]
  rfl

end Cert.SparseConv.Ref

end
-- ==== Proof.lean ====
/-
  A sparse 3-D convolution as 27 per-offset products: for each kernel offset k the host gathers 100000 input rows
  (row (k, r) is the input row at index imap (k, r), a negative index wrapped by 200000), multiplies the [100000, 64]
  block of gathered rows by the offset's [64, 64] weight matrix, scatter-adds the product's rows into a zero
  [200000, 64] table at the indices omap (k, r) (wrapped the same way), and adds the bias to every row.

  The kernel does the products on a 27 × 20 grid of [5000, 64] row tiles, each tile one matrix product into a zero
  accumulator with both operands narrowed to bf16 first; the reference does them as one batched product. Over the
  extended reals the narrowing is the identity and both products are the plain sum
      P (k, r, o) = ∑ c, rows (k, r, c) · weights (k, c, o),
  so the kernel's tiles are tiles of P, they cover the output, and the region leaves P (Proof/KernelTile.lean,
  Proof/KernelArray.lean); the reference's batched product is P as well (Proof/RefProduct.lean). The gather before the
  product and the scatter-add and bias after it are the same operations of the same arguments in both programs, so
  they are carried as functions of P and never opened (Proof/KernelResult.lean). No law here needs finiteness: the
  precondition is not used.
-/
import proofs.«124515_j56392920596825_1_alg».proof.Defs
import proofs.«124515_j56392920596825_1_alg».proof.Proof.Gen.Kernel
import proofs.«124515_j56392920596825_1_alg».proof.Proof.Gen.Kernel.Skeleton
import proofs.«124515_j56392920596825_1_alg».proof.Proof.Gen.Kernel.Launch
import proofs.«124515_j56392920596825_1_alg».proof.Proof.Gen.Kernel.Points
import proofs.«124515_j56392920596825_1_alg».proof.Proof.Gen.Kernel.Frame
import proofs.«124515_j56392920596825_1_alg».proof.Proof.Gen.KernelIdeal
import proofs.«124515_j56392920596825_1_alg».proof.Proof.Gen.KernelIdeal.Skeleton
import proofs.«124515_j56392920596825_1_alg».proof.Proof.Gen.KernelIdeal.Launch
import proofs.«124515_j56392920596825_1_alg».proof.Proof.Gen.KernelIdeal.Points
import proofs.«124515_j56392920596825_1_alg».proof.Proof.Gen.KernelIdeal.Frame
import proofs.«124515_j56392920596825_1_alg».proof.Proof.Gen.ReferenceIdeal
import proofs.«124515_j56392920596825_1_alg».proof.Proof.Gen.ReferenceIdeal.Run
import proofs.«124515_j56392920596825_1_alg».proof.Proof.Gen.ReferenceIdeal.Read
import proofs.«124515_j56392920596825_1_alg».proof.Proof.Gen.Pre_finite_inputs
import proofs.«124515_j56392920596825_1_alg».proof.Proof.KernelResult
import proofs.«124515_j56392920596825_1_alg».proof.Proof.RefProduct
import Idealize.ShloMosaic.Adequacy
import Idealize.ShloMosaic.Init

set_option maxRecDepth 16384

noncomputable section

namespace Cert.Proof

open Idealize.ShloMosaic Idealize.SL.Sem

/-- The gather before the product is the same function of the same arguments in both programs. -/
theorem gathered_same (x0 : (⟨Cert.KernelIdeal.S200000x64, .f32⟩ : BufTy).Contents (Elt Ideal))
    (x3 : (⟨Cert.KernelIdeal.S27x100000, .i32⟩ : BufTy).Contents (Elt Ideal)) :
    Cert.ReferenceIdeal.Read.val_main_v6 (F := Ideal) x0 x3 = Cert.SparseConv.Region.gathered x0 x3 := rfl

/-- So is what follows the product: the scatter-add into the zero table and the bias. -/
theorem finished_same (P : (⟨Cert.KernelIdeal.S27x100000x64, .f32⟩ : BufTy).Contents (Elt Ideal))
    (x2 : (⟨Cert.KernelIdeal.S64, .f32⟩ : BufTy).Contents (Elt Ideal))
    (x4 : (⟨Cert.KernelIdeal.S27x100000, .i32⟩ : BufTy).Contents (Elt Ideal)) :
    Cert.SparseConv.Ref.finish P x2 x4 = Cert.SparseConv.Region.finished P x2 x4 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the finished per-offset product of the gathered rows and the weights. -/
theorem algebraic : Cert.algebraic_KernelIdeal_ReferenceIdeal := by
  intro m ρ m' ρ' _ hagree
  refine ⟨_, Cert.SparseConv.Region.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq (F := Ideal) _ _ _ _ _).trans ?_
  refine (Cert.SparseConv.Ref.result_eq _ _ _ _ _).trans ?_
  rw [(hagree c).1, (hagree c).2.1, (hagree c).2.2.1, (hagree c).2.2.2.1, (hagree c).2.2.2.2]
  exact (finished_same _ _ _).trans (congrArg (fun g => Cert.SparseConv.Region.finished (Cert.SparseConv.offsetProduct g _) _ _) (gathered_same _ _))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
